-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x64 : Shape := ⟨2, ![1, 64]⟩
abbrev S10000x64 : Shape := ⟨2, ![10000, 64]⟩
abbrev S_ : Shape := ⟨0, ![]⟩
abbrev S1700000x1 : Shape := ⟨2, ![1700000, 1]⟩
abbrev S1700000x64 : Shape := ⟨2, ![1700000, 64]⟩

abbrev nBuf : Space → Nat
  | .hbm => 106
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x64, .f32⟩
  | .hbm, ⟨14, _⟩ => ⟨S100000x64, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S1700000x1, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S_, .f32⟩
  | .hbm, ⟨62, _⟩ => ⟨S1700000, .f32⟩
  | .hbm, ⟨63, _⟩ => ⟨S_, .f32⟩
  | .hbm, ⟨64, _⟩ => ⟨S100000, .f32⟩
  | .hbm, ⟨65, _⟩ => ⟨S1700000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S1700000x1, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_15 : Ref sig .tc := ⟨.hbm, 90, rfl⟩
abbrev main_v67 : Ref sig .tc := ⟨.hbm, 91, rfl⟩
abbrev main_v68 : Ref sig .tc := ⟨.hbm, 92, rfl⟩
abbrev main_c_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v78) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S10000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x64 : Shape := ⟨2, ![1, 64]⟩
abbrev S_ : Shape := ⟨0, ![]⟩
abbrev S1700000x1 : Shape := ⟨2, ![1700000, 1]⟩
abbrev S1700000x64 : Shape := ⟨2, ![1700000, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S64x64, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S100000x64, .f32⟩
  | .hbm, ⟨63, _⟩ => ⟨S64x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000, .f32⟩
  | .hbm, ⟨96, _⟩ => ⟨S1700000x1, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x64, .f32⟩
  | .hbm, ⟨107, _⟩ => ⟨S1700000x64, .f32⟩
  | .hbm, ⟨108, _⟩ => ⟨S_, .f32⟩
  | .hbm, ⟨109, _⟩ => ⟨S100000x64, .f32⟩
  | .hbm, ⟨110, _⟩ => ⟨S1700000x1, .i32⟩
  | .hbm, ⟨111, _⟩ => ⟨S100000x64, .f32⟩
  | .hbm, ⟨112, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_c_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_15 : Ref sig .tc := ⟨.hbm, 97, rfl⟩
abbrev main_v74 : Ref sig .tc := ⟨.hbm, 98, rfl⟩
abbrev main_v75 : Ref sig .tc := ⟨.hbm, 99, rfl⟩
abbrev main_c_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelHost.lean ====
/-
  The host operations of the idealized kernel program, read as values.

  Between its three kernel regions the program does the graph part of a convolution layer with host operations.
  From the edge list `e` (two rows of 1600000 node numbers) it forms the source and the target of every edge with one
  self loop per node appended (`rowOf e`, `colOf e`: 1700000 entries each). A layer's aggregation of node features
  `h` is then: the degree of each node as a sum of ones scattered at the sources, `dis = degree ^ (-1/2)`, an edge's
  weight `dis[row] · dis[col]` (each index wrapped once if negative), the features gathered at the sources and scaled by
  the weight, and the sum of the scaled rows scattered at the targets (`agg row col h`). The lemmas say which arrays
  each region finds on entry, as these functions of the launch memory and of the previous region's output.
-/
import proofs.«126072_j43164421325168_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- One node number per edge (self loops included). -/
abbrev EdgeIx : Type := (⟨S1700000, .i32⟩ : BufTy).Contents (Elt Ideal)
/-- Node features. -/
abbrev Feat : Type := FVec Ideal S100000x64 .f32

/-- Row `r` of the edge list followed by the node numbers 0 … 99999 (the self loops). -/
def endsOf (r : Fin 2 → Nat) (hr : S2x1600000.Slices r S1x1600000)
    (e : (⟨S2x1600000, .i32⟩ : BufTy).Contents (Elt Ideal)) : EdgeIx :=
  concatenate S1700000 0 [⟨S1600000, shapeCast _ (extractStridedSlice S1x1600000 r e hr) shapeCasts_S1x1600000_S1600000⟩,
    ⟨S100000, iotaInDim S100000 32 0⟩] concatenates_S1600000_S100000_S1700000_d0

/-- The sources of the edges. -/
def rowOf (e : (⟨S2x1600000, .i32⟩ : BufTy).Contents (Elt Ideal)) : EdgeIx := endsOf ![0, 0] slices_S2x1600000_S1x1600000_0_0 e
/-- The targets of the edges. -/
def colOf (e : (⟨S2x1600000, .i32⟩ : BufTy).Contents (Elt Ideal)) : EdgeIx := endsOf ![1, 0] slices_S2x1600000_S1x1600000_1_0 e

/-- `degree ^ (-1/2)`, the degree counted at the sources. -/
def dis (row : EdgeIx) : FVec Ideal S100000 .f32 :=
  Host.powf (F := Ideal)
    (Host.scatterAdd (F := Ideal) scatter_S100000_S1700000x1_S1700000_n_0_0_1
      (broadcastInDim S100000 ![] bcast_S_S100000 (constant (F := Ideal) S_ .f32 0x00000000#32))
      (broadcastInDim S1700000x1 ![0] bcast_S1700000_S1700000x1_0 row)
      (broadcastInDim S1700000 ![] bcast_S_S1700000 (constant (F := Ideal) S_ .f32 0x3F800000#32)))
    (broadcastInDim S100000 ![] bcast_S_S100000 (constant (F := Ideal) S_ .f32 0xBF000000#32))

/-- A node number wrapped once if negative, as a column of indices. -/
def wrap (ix : EdgeIx) : (⟨S1700000x1, .i32⟩ : BufTy).Contents (Elt Ideal) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- An edge's weight: `dis` at its source times `dis` at its target. -/
def edgeWeight (row col : EdgeIx) : FVec Ideal S1700000 .f32 :=
  mulf (F := Ideal) (Host.gather gather_S100000_S1700000x1_S1700000_n_0_n_n_0_1_1 (dis row) (wrap row))
    (Host.gather gather_S100000_S1700000x1_S1700000_n_0_n_n_0_1_1 (dis row) (wrap col))

/-- The aggregation: each node's sum, over the edges that end in it, of the weight times the source's features. -/
def agg (row col : EdgeIx) (h : Feat) : Feat :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 col)
    (mulf (F := Ideal)
      (broadcastInDim S1700000x64 ![0, 1] bcast_S1700000x1_S1700000x64_0_1
        (broadcastInDim S1700000x1 ![0] bcast_S1700000_S1700000x1_0 (edgeWeight row col)))
      (Host.gather gather_S100000x64_S1700000x1_S1700000x64_1_0_n_n_0_1_164 h (wrap row)))

variable (m : (ℓ : Loc nD τ sig) → Buf (Elt Ideal) ℓ) (ρ : Dev nD → PrngReg)

/-! ## What region 0 finds -/

theorem entry0_x (c : Dev nD) : V1 m ρ c main_arg0 = m ((c : Thread nD τ).loc main_arg0) := by
  show StableHlo.after hostOps0 (W0 m ρ c) (Proc.devRef .tc main_arg0) = _
  after_results
theorem entry0_w (c : Dev nD) : V1 m ρ c main_arg2 = m ((c : Thread nD τ).loc main_arg2) := by
  show StableHlo.after hostOps0 (W0 m ρ c) (Proc.devRef .tc main_arg2) = _
  after_results
theorem entry0_b (c : Dev nD) :
    V1 m ρ c main_v7 = shapeCast S1x64 (m ((c : Thread nD τ).loc main_arg3)) shapeCasts_S64_S1x64 := by
  show StableHlo.after hostOps0 (W0 m ρ c) (Proc.devRef .tc main_v7) = _
  after_results; rfl

/-- The sources and the targets, as the first host stretch leaves them. -/
theorem row1 (c : Dev nD) : W1 m ρ c (Proc.devRef .tc main_v3) = rowOf (m ((c : Thread nD τ).loc main_arg1)) := by
  show StableHlo.after hostOps0 (W0 m ρ c) (Proc.devRef .tc main_v3) = _
  after_results; rfl
theorem col1 (c : Dev nD) : W1 m ρ c (Proc.devRef .tc main_v6) = colOf (m ((c : Thread nD τ).loc main_arg1)) := by
  show StableHlo.after hostOps0 (W0 m ρ c) (Proc.devRef .tc main_v6) = _
  after_results; rfl

/-! ## What region 1 finds -/

/-- Region 1's input: the aggregation of region 0's output. -/
theorem entry1_h (c : Dev nD) :
    V3 m ρ c main_v42 = agg (W2 m ρ c (Proc.devRef .tc main_v3)) (W2 m ρ c (Proc.devRef .tc main_v6))
      (W2 m ρ c (Proc.devRef .tc main_v8)) := by
  show StableHlo.after hostOps1 (W2 m ρ c) (Proc.devRef .tc main_v42) = _
  generalize W2 m ρ c = Wv
  after_results_simp
  rfl
theorem entry1_w (c : Dev nD) : V3 m ρ c main_arg4 = W2 m ρ c (Proc.devRef .tc main_arg4) := by
  show StableHlo.after hostOps1 (W2 m ρ c) (Proc.devRef .tc main_arg4) = _
  generalize W2 m ρ c = Wv
  after_results_simp
theorem entry1_b (c : Dev nD) :
    V3 m ρ c main_v43 = shapeCast S1x64 (W2 m ρ c (Proc.devRef .tc main_arg5)) shapeCasts_S64_S1x64 := by
  show StableHlo.after hostOps1 (W2 m ρ c) (Proc.devRef .tc main_v43) = _
  generalize W2 m ρ c = Wv
  after_results_simp
  rfl

/-- The second host stretch leaves the sources and the targets as they were. -/
theorem row3 (c : Dev nD) : W3 m ρ c (Proc.devRef .tc main_v3) = W2 m ρ c (Proc.devRef .tc main_v3) := by
  show StableHlo.after hostOps1 (W2 m ρ c) (Proc.devRef .tc main_v3) = _
  generalize W2 m ρ c = Wv
  after_results_simp
theorem col3 (c : Dev nD) : W3 m ρ c (Proc.devRef .tc main_v6) = W2 m ρ c (Proc.devRef .tc main_v6) := by
  show StableHlo.after hostOps1 (W2 m ρ c) (Proc.devRef .tc main_v6) = _
  generalize W2 m ρ c = Wv
  after_results_simp

/-! ## What region 2 finds -/

/-- Region 2's input: the aggregation of region 1's output. -/
theorem entry2_h (c : Dev nD) :
    V5 m ρ c main_v78 = agg (W4 m ρ c (Proc.devRef .tc main_v3)) (W4 m ρ c (Proc.devRef .tc main_v6))
      (W4 m ρ c (Proc.devRef .tc main_v44)) := by
  show StableHlo.after hostOps2 (W4 m ρ c) (Proc.devRef .tc main_v78) = _
  generalize W4 m ρ c = Wv
  after_results_simp
  rfl

/-! ## The arrays no region writes, walked back through the regions -/

theorem row2 (c : Dev nD) : W2 m ρ c (Proc.devRef .tc main_v3) = rowOf (m ((c : Thread nD τ).loc main_arg1)) :=
  (W2_of_ne m ρ c main_v3 (by decide)).trans (row1 m ρ c)
theorem col2 (c : Dev nD) : W2 m ρ c (Proc.devRef .tc main_v6) = colOf (m ((c : Thread nD τ).loc main_arg1)) :=
  (W2_of_ne m ρ c main_v6 (by decide)).trans (col1 m ρ c)
theorem row4 (c : Dev nD) : W4 m ρ c (Proc.devRef .tc main_v3) = rowOf (m ((c : Thread nD τ).loc main_arg1)) :=
  (W4_of_ne m ρ c main_v3 (by decide)).trans ((row3 m ρ c).trans (row2 m ρ c))
theorem col4 (c : Dev nD) : W4 m ρ c (Proc.devRef .tc main_v6) = colOf (m ((c : Thread nD τ).loc main_arg1)) :=
  (W4_of_ne m ρ c main_v6 (by decide)).trans ((col3 m ρ c).trans (col2 m ρ c))

/-- The second layer's weights and bias are still the launch memory's when region 1 is entered. -/
theorem w2_2 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem b2_2 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

end Cert.KernelIdeal.HostValue

end
-- ==== Proof.Spec.lean ====
/-
  The two graph-convolution layers, as functions of whole arrays.

  A dense layer sends the node features `x` (100000 rows of 64), a weight matrix `W` (64 by 64) and a bias `b`
  (64 entries) to the array whose entry `(p, q)` is `∑ₖ x[p, k] · W[q, k] + b[q]`: row `p` of the features against
  row `q` of the weights, that is `x · Wᵀ + b`. On the extended reals this is one number: no rounding, no order
  of summation. The kernel hands the bias over as a 1 × 64 row, the reference as 64 entries; `linRow` and `lin`
  are the layer in the two spellings and `linRow_shapeCast` says they agree.
-/
import Idealize.ShloMosaic.PureOps.Ideal
import Idealize.ShloMosaic.Lib.ValueIdx
import Idealize.ShloMosaic.Lib.Pipeline.Value

noncomputable section

namespace Cert.GCN

open Idealize.ShloMosaic Idealize.ShloMosaic.ValueIdx

/-- The shape of the node features and of every layer's output: 100000 nodes, 64 channels. -/
abbrev SN : Shape := ⟨2, ![100000, 64]⟩
/-- A weight matrix. -/
abbrev SW : Shape := ⟨2, ![64, 64]⟩
/-- A bias as the reference holds it. -/
abbrev SB : Shape := ⟨1, ![64]⟩
/-- A bias as the kernel holds it: one row. -/
abbrev SR : Shape := ⟨2, ![1, 64]⟩

/-- Entry `(p, q)` of `x · Wᵀ`, plus a bias term `β`. -/
def linAt (x : FVec Ideal SN .f32) (W : FVec Ideal SW .f32) (β : EReal) (p : Fin 100000) (q : Fin 64) : EReal :=
  (∑ k : Fin 64, x (ix2 p k) * W (ix2 q k)) + β

/-- The dense layer `x · Wᵀ + b`, the bias given as 64 entries. -/
def lin (x : FVec Ideal SN .f32) (W : FVec Ideal SW .f32) (b : FVec Ideal SB .f32) : FVec Ideal SN .f32 :=
  fun i => linAt x W (b (ix1 ⟨(i 1).val, (i 1).isLt⟩)) ⟨(i 0).val, (i 0).isLt⟩ ⟨(i 1).val, (i 1).isLt⟩

/-- The dense layer `x · Wᵀ + b`, the bias given as a 1 × 64 row. -/
def linRow (x : FVec Ideal SN .f32) (W : FVec Ideal SW .f32) (b : FVec Ideal SR .f32) : FVec Ideal SN .f32 :=
  fun i => linAt x W (b (ix2 (0 : Fin 1) ⟨(i 1).val, (i 1).isLt⟩)) ⟨(i 0).val, (i 0).isLt⟩ ⟨(i 1).val, (i 1).isLt⟩

theorem lin_apply (x : FVec Ideal SN .f32) (W : FVec Ideal SW .f32) (b : FVec Ideal SB .f32) (p : Fin 100000) (q : Fin 64) :
    lin x W b (ix2 p q) = (∑ k : Fin 64, x (ix2 p k) * W (ix2 q k)) + b (ix1 q) := rfl

theorem linRow_apply (x : FVec Ideal SN .f32) (W : FVec Ideal SW .f32) (b : FVec Ideal SR .f32) (p : Fin 100000) (q : Fin 64) :
    linRow x W b (ix2 p q) = (∑ k : Fin 64, x (ix2 p k) * W (ix2 q k)) + b (ix2 (0 : Fin 1) q) := rfl

/-- A bias reshaped to one row is the same bias: the two spellings of the layer agree. -/
theorem linRow_shapeCast (x : FVec Ideal SN .f32) (W : FVec Ideal SW .f32) (b : FVec Ideal SB .f32) (h : SB.ShapeCasts SR) :
    linRow x W (shapeCast SR b h) = lin x W b := by
  funext i
  unfold linRow lin
  rw [shapeCast_apply b h (ix2 (0 : Fin 1) ⟨(i 1).val, (i 1).isLt⟩) (ix1 ⟨(i 1).val, (i 1).isLt⟩)
    (by rw [Shape.rowMajor_val_one, Shape.rowMajor_val_two]; show (i 1).val = 0 * 64 + (i 1).val; omega)]

/-- The activation, entry by entry. -/
def act (x : FVec Ideal SN .f32) : FVec Ideal SN .f32 := fun i => Ideal.tanh (x i)

theorem act_eq_tanh (x : FVec Ideal SN .f32) : act x = tanh (F := Ideal) x := rfl
theorem act_eq_hostTanh (x : FVec Ideal SN .f32) : act x = Host.tanh (F := Ideal) x := rfl

end Cert.GCN

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Region0.lean ====
/-
  The first dense layer, as the kernel's first call computes it.

  The call walks the 100000 rows of the node features `x` in ten blocks of 10000 rows. At a block it holds the block of
  `x` (10000 × 64), the whole weight matrix `W` (64 × 64) and the bias row `b` (1 × 64), and writes the 10000 × 64
  block whose entry `(p, q)` is `∑ₖ x[p, k] · W[q, k] + b[0, q]`: the product of the block with the transpose of `W`
  starts from zero, a change of float format is the identity on the extended reals, and the bias row is repeated down
  the rows. Entry `(p, q)` of block `t` depends on row `p` of the block, which is row `10000 · t + p` of `x`, on row `q`
  of `W` and on entry `q` of the bias; so block `t` of the result is block `t` of the dense layer of the whole arrays.
  The ten blocks cover every row (row `r` lies in block `r / 10000`), hence the array the call leaves is `x · Wᵀ + b`
  of the arrays it found.
-/
import proofs.«126072_j43164421325168_1_alg».proof.Proof.Gen.KernelIdeal.Frame
import proofs.«126072_j43164421325168_1_alg».proof.Proof.Spec
import proofs.«126072_j43164421325168_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegionValue
open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The product's dimension numbers are those of rows by columns: the left operand's second axis against the right
    operand's first, no batch axis. -/
theorem dims0_plain : dot_S10000x64_S64x64_S10000x64_1_0_0_1_n_n = DotDims.plain 10000 64 64 := rfl

/-- Entry `(p, q)` of what the body writes: row `p` of the block against row `q` of the weights, plus the bias row's
    entry `q`. -/
theorem dense0_entry (x0 : Vec Ideal S10000x64 .f32) (x1 : Vec Ideal S64x64 .f32) (x2 : Vec Ideal S1x64 .f32)
    (p : Fin 10000) (q : Fin 64) :
    k0_pay1 x0 x1 x2 (ix2 p q) = (∑ k : Fin 64, x0 (ix2 p k) * x1 (ix2 q k)) + x2 (ix2 (0 : Fin 1) q) := by
  unfold k0_pay1
  refine congrArg₂ (· + ·) ?_ ?_
  · refine (congrFun (congrArg (fun d => FloatOps.matmul d none _ _ _) dims0_plain) (ix2 p q)).trans ?_
    refine (Cert.GNN.matmul_plain_zero_apply none _ _ p q).trans ?_
    refine Finset.sum_congr rfl fun k _ => ?_
    exact congrArg (x0 (ix2 p k) * ·) (transpose_ix2_apply _ _ k q)
  · exact (broadcastTo_1b_ab_apply _ _ p q).trans (congrFun (shapeCast_self x2 _) _)

/-- If the block's row `p` is row `r p` of an array `X`, and the weights and the bias row held are `W` and `b`, then
    entry `(p, q)` of what the body writes is entry `(r p, q)` of the dense layer of `X`, `W`, `b`. -/
theorem dense0_block (X : FVec Ideal Cert.GCN.SN .f32) (W : FVec Ideal Cert.GCN.SW .f32) (b : FVec Ideal Cert.GCN.SR .f32)
    (x0 : Vec Ideal S10000x64 .f32) (x1 : Vec Ideal S64x64 .f32) (x2 : Vec Ideal S1x64 .f32)
    (r : Fin 10000 → Fin 100000)
    (h0 : ∀ (p : Fin 10000) (k : Fin 64), x0 (ix2 p k) = X (ix2 (r p) k))
    (h1 : ∀ (q k : Fin 64), x1 (ix2 q k) = W (ix2 q k))
    (h2 : ∀ q : Fin 64, x2 (ix2 (0 : Fin 1) q) = b (ix2 (0 : Fin 1) q))
    (p : Fin 10000) (q : Fin 64) :
    k0_pay1 x0 x1 x2 (ix2 p q) = Cert.GCN.linRow X W b (ix2 (r p) q) := by
  rw [dense0_entry, Cert.GCN.linRow_apply, h2]
  refine congrArg (· + b (ix2 (0 : Fin 1) q)) (Finset.sum_congr rfl fun k _ => ?_)
  exact congrArg₂ (· * ·) (h0 p k) (h1 q k)

/-- The offset vector with both entries zero is the constant zero function. -/
theorem zeros0 : (![0, 0] : Fin 2 → Nat) = fun _ => 0 := funext fun a => by fin_cases a <;> rfl

/-- The block indices at point `t`: the features' and the result's blocks are block `t` along the rows and the only
    block along the columns; the weights and the bias row are one block each. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the dense layer of the whole arrays: row `p` of the block read is row
    `10000 · t + p` of the input, and the weights and the bias row are read whole. -/
theorem wrote0 (c : Dev nD) (t : Fin cfg0.N) :
    (dat0 V c).flushed 3 t = ((cfg0.win 3).blk t).view.read (Elt Ideal)
      (Cert.GCN.linRow (V c main_arg0) (V c main_arg2) (V c main_v7)) := by
  show (cfg0.win 3).cut (grid0.coords t) ((dat0 V c).after 3 t) = _
  rw [after0_3]
  unfold out0_3
  rw [View.canon_unit_zero zeros0]
  simp only [View.ld_unit_zero (S := S10000x64) zeros0, View.ld_unit_zero (S := S64x64) zeros0, View.ld_unit_zero (S := S1x64) zeros0]
  obtain ⟨e00, e01, e10, e11, e20, e21, e30, e31⟩ := index0 t
  have hN : t.val < 10 := Nat.lt_of_lt_of_eq t.isLt N_0
  funext j
  have hp : (j 0).val < 10000 := (j 0).isLt
  have hq : (j 1).val < 64 := (j 1).isLt
  have hj : (j : S10000x64.Idx) = ix2 (⟨(j 0).val, hp⟩ : Fin 10000) (⟨(j 1).val, hq⟩ : Fin 64) :=
    funext fun a => match a with | ⟨0, _⟩ => rfl | ⟨1, _⟩ => rfl
  have hemb : (((cfg0.win 3).blk t).view.emb j : Cert.GCN.SN.Idx)
      = ix2 (⟨t.val * 10000 + (j 0).val, by omega⟩ : Fin 100000) (⟨(j 1).val, hq⟩ : Fin 64) := by
    funext a; apply Fin.ext
    match a with
    | ⟨0, _⟩ => show win0_3.index t (0 : Fin 2) * 10000 + 1 * (j 0).val = t.val * 10000 + (j 0).val; omega
    | ⟨1, _⟩ => show win0_3.index t (1 : Fin 2) * 64 + 1 * (j 1).val = (j 1).val; omega
  show k0_pay1 (iblk0 V c 0 t) (iblk0 V c 1 t) (iblk0 V c 2 t) j
    = Cert.GCN.linRow (V c main_arg0) (V c main_arg2) (V c main_v7) (((cfg0.win 3).blk t).view.emb j)
  rw [hemb]
  refine (congrArg (k0_pay1 (iblk0 V c 0 t) (iblk0 V c 1 t) (iblk0 V c 2 t)) hj).trans ?_
  refine dense0_block (V c main_arg0) (V c main_arg2) (V c main_v7) (iblk0 V c 0 t) (iblk0 V c 1 t) (iblk0 V c 2 t)
    (fun p => ⟨t.val * 10000 + p.val, by have := p.isLt; omega⟩) ?_ ?_ ?_ ⟨(j 0).val, hp⟩ ⟨(j 1).val, hq⟩
  · intro p k
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · intro q k
    show V c main_arg2 (((cfg0.win 1).blk t).view.emb (ix2 q k)) = _
    refine congrArg (V c main_arg2) (funext fun a => Fin.ext ?_)
    match a with
    | ⟨0, _⟩ => show win0_1.index t (0 : Fin 2) * 64 + 1 * q.val = q.val; omega
    | ⟨1, _⟩ => show win0_1.index t (1 : Fin 2) * 64 + 1 * k.val = k.val; omega
  · intro q
    show V c main_v7 (((cfg0.win 2).blk t).view.emb (ix2 (0 : Fin 1) q)) = _
    refine congrArg (V c main_v7) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega

/-- An entry of the array lies in point `t`'s block exactly when each of its coordinates lies in the block's range. -/
theorem mem_block0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v8).slice (win0_3.rect t)).set ↔ _
  rw [View.set_slice_whole, Rect.mem_set_unit]
  exact Iff.rfl

/-- Every entry of the array is written back by some point: row `r` lies in block `r / 10000`. -/
theorem covered0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e30, e31⟩ := index0 t
  have ht : t.val = (i 0).val / 10000 := rfl
  refine ⟨t, flush0_3 t, ?_⟩
  rw [mem_block0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The array the call leaves: the dense layer of the arrays it found. -/
theorem arr0 (c : Dev nD) :
    (dat0 V c).arrAt 3 cfg0.N = Cert.GCN.linRow (V c main_arg0) (V c main_arg2) (V c main_v7) :=
  (dat0 V c).arrAt_eq_of_cover 3 _ (fun t _ => wrote0 V c t) covered0

end Cert.KernelIdeal.RegionValue
end
-- ==== Proof.Region1.lean ====
/-
  The second dense layer, as the kernel's second call computes it.

  The call walks the 100000 rows of its input `y` in ten blocks of 10000 rows. At a block it holds the block of `y`
  (10000 × 64), the whole weight matrix `W` (64 × 64) and the bias row `b` (1 × 64); it applies `tanh` to every entry
  of the block and writes the 10000 × 64 block whose entry `(p, q)` is `∑ₖ tanh(y[p, k]) · W[q, k] + b[0, q]`: the
  product of the activated block with the transpose of `W` starts from zero, a change of float format is the identity
  on the extended reals, and the bias row is repeated down the rows. Entry `(p, q)` of block `t` depends on row `p` of
  the block, which is row `10000 · t + p` of `y`, on row `q` of `W` and on entry `q` of the bias; so block `t` of the
  result is block `t` of the dense layer of the activated whole array. The ten blocks cover every row (row `r` lies in
  block `r / 10000`), hence the array the call leaves is `tanh(y) · Wᵀ + b` of the arrays it found.
-/
import proofs.«126072_j43164421325168_1_alg».proof.Proof.Gen.KernelIdeal.Frame
import proofs.«126072_j43164421325168_1_alg».proof.Proof.Spec
import proofs.«126072_j43164421325168_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegionValue
open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The product's dimension numbers are those of rows by columns: the left operand's second axis against the right
    operand's first, no batch axis. -/
theorem dims1_plain : dot_S10000x64_S64x64_S10000x64_1_0_0_1_n_n = DotDims.plain 10000 64 64 := rfl

/-- Entry `(p, q)` of what the body writes: row `p` of the activated block against row `q` of the weights, plus the
    bias row's entry `q`. -/
theorem dense1_entry (x0 : Vec Ideal S10000x64 .f32) (x1 : Vec Ideal S64x64 .f32) (x2 : Vec Ideal S1x64 .f32)
    (p : Fin 10000) (q : Fin 64) :
    k1_pay1 x0 x1 x2 (ix2 p q) = (∑ k : Fin 64, Ideal.tanh (x0 (ix2 p k)) * x1 (ix2 q k)) + x2 (ix2 (0 : Fin 1) q) := by
  unfold k1_pay1
  refine congrArg₂ (· + ·) ?_ ?_
  · refine (congrFun (congrArg (fun d => FloatOps.matmul d none _ _ _) dims1_plain) (ix2 p q)).trans ?_
    refine (Cert.GNN.matmul_plain_zero_apply none _ _ p q).trans ?_
    refine Finset.sum_congr rfl fun k _ => ?_
    exact congrArg₂ (· * ·) (congrArg Ideal.tanh (congrFun (shapeCast_self x0 _) (ix2 p k))) (transpose_ix2_apply _ _ k q)
  · exact (broadcastTo_1b_ab_apply _ _ p q).trans (congrFun (shapeCast_self x2 _) _)

/-- If the block's row `p` is row `r p` of an array `X`, and the weights and the bias row held are `W` and `b`, then
    entry `(p, q)` of what the body writes is entry `(r p, q)` of the dense layer of `tanh(X)`, `W`, `b`. -/
theorem dense1_block (X : FVec Ideal Cert.GCN.SN .f32) (W : FVec Ideal Cert.GCN.SW .f32) (b : FVec Ideal Cert.GCN.SR .f32)
    (x0 : Vec Ideal S10000x64 .f32) (x1 : Vec Ideal S64x64 .f32) (x2 : Vec Ideal S1x64 .f32)
    (r : Fin 10000 → Fin 100000)
    (h0 : ∀ (p : Fin 10000) (k : Fin 64), x0 (ix2 p k) = X (ix2 (r p) k))
    (h1 : ∀ (q k : Fin 64), x1 (ix2 q k) = W (ix2 q k))
    (h2 : ∀ q : Fin 64, x2 (ix2 (0 : Fin 1) q) = b (ix2 (0 : Fin 1) q))
    (p : Fin 10000) (q : Fin 64) :
    k1_pay1 x0 x1 x2 (ix2 p q) = Cert.GCN.linRow (Cert.GCN.act X) W b (ix2 (r p) q) := by
  rw [dense1_entry, Cert.GCN.linRow_apply, h2]
  refine congrArg (· + b (ix2 (0 : Fin 1) q)) (Finset.sum_congr rfl fun k _ => ?_)
  refine congrArg₂ (· * ·) ?_ (h1 q k)
  exact congrArg Ideal.tanh (h0 p k)

/-- The offset vector with both entries zero is the constant zero function. -/
theorem zeros1 : (![0, 0] : Fin 2 → Nat) = fun _ => 0 := funext fun a => by fin_cases a <;> rfl

/-- The block indices at point `t`: the input's and the result's blocks are block `t` along the rows and the only
    block along the columns; the weights and the bias row are one block each. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the dense layer of the whole arrays: row `p` of the block read is row
    `10000 · t + p` of the input, and the weights and the bias row are read whole. -/
theorem wrote1 (c : Dev nD) (t : Fin cfg1.N) :
    (dat1 V c).flushed 3 t = ((cfg1.win 3).blk t).view.read (Elt Ideal)
      (Cert.GCN.linRow (Cert.GCN.act (V c main_v42)) (V c main_arg4) (V c main_v43)) := by
  show (cfg1.win 3).cut (grid1.coords t) ((dat1 V c).after 3 t) = _
  rw [after1_3]
  unfold out1_3
  rw [View.canon_unit_zero zeros1]
  simp only [View.ld_unit_zero (S := S10000x64) zeros1, View.ld_unit_zero (S := S64x64) zeros1, View.ld_unit_zero (S := S1x64) zeros1]
  obtain ⟨e00, e01, e10, e11, e20, e21, e30, e31⟩ := index1 t
  have hN : t.val < 10 := Nat.lt_of_lt_of_eq t.isLt N_1
  funext j
  have hp : (j 0).val < 10000 := (j 0).isLt
  have hq : (j 1).val < 64 := (j 1).isLt
  have hj : (j : S10000x64.Idx) = ix2 (⟨(j 0).val, hp⟩ : Fin 10000) (⟨(j 1).val, hq⟩ : Fin 64) :=
    funext fun a => match a with | ⟨0, _⟩ => rfl | ⟨1, _⟩ => rfl
  have hemb : (((cfg1.win 3).blk t).view.emb j : Cert.GCN.SN.Idx)
      = ix2 (⟨t.val * 10000 + (j 0).val, by omega⟩ : Fin 100000) (⟨(j 1).val, hq⟩ : Fin 64) := by
    funext a; apply Fin.ext
    match a with
    | ⟨0, _⟩ => show win1_3.index t (0 : Fin 2) * 10000 + 1 * (j 0).val = t.val * 10000 + (j 0).val; omega
    | ⟨1, _⟩ => show win1_3.index t (1 : Fin 2) * 64 + 1 * (j 1).val = (j 1).val; omega
  show k1_pay1 (iblk1 V c 0 t) (iblk1 V c 1 t) (iblk1 V c 2 t) j
    = Cert.GCN.linRow (Cert.GCN.act (V c main_v42)) (V c main_arg4) (V c main_v43) (((cfg1.win 3).blk t).view.emb j)
  rw [hemb]
  refine (congrArg (k1_pay1 (iblk1 V c 0 t) (iblk1 V c 1 t) (iblk1 V c 2 t)) hj).trans ?_
  refine dense1_block (V c main_v42) (V c main_arg4) (V c main_v43) (iblk1 V c 0 t) (iblk1 V c 1 t) (iblk1 V c 2 t)
    (fun p => ⟨t.val * 10000 + p.val, by have := p.isLt; omega⟩) ?_ ?_ ?_ ⟨(j 0).val, hp⟩ ⟨(j 1).val, hq⟩
  · intro p k
    show V c main_v42 (((cfg1.win 0).blk t).view.emb (ix2 p k)) = _
    refine congrArg (V c main_v42) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · intro q k
    show V c main_arg4 (((cfg1.win 1).blk t).view.emb (ix2 q k)) = _
    refine congrArg (V c main_arg4) (funext fun a => Fin.ext ?_)
    match a with
    | ⟨0, _⟩ => show win1_1.index t (0 : Fin 2) * 64 + 1 * q.val = q.val; omega
    | ⟨1, _⟩ => show win1_1.index t (1 : Fin 2) * 64 + 1 * k.val = k.val; omega
  · intro q
    show V c main_v43 (((cfg1.win 2).blk t).view.emb (ix2 (0 : Fin 1) q)) = _
    refine congrArg (V c main_v43) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega

/-- An entry of the array lies in point `t`'s block exactly when each of its coordinates lies in the block's range. -/
theorem mem_block1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v44).slice (win1_3.rect t)).set ↔ _
  rw [View.set_slice_whole, Rect.mem_set_unit]
  exact Iff.rfl

/-- Every entry of the array is written back by some point: row `r` lies in block `r / 10000`. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, e30, e31⟩ := index1 t
  have ht : t.val = (i 0).val / 10000 := rfl
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The array the call leaves: the dense layer of the arrays it found, the input activated. -/
theorem arr1 (c : Dev nD) :
    (dat1 V c).arrAt 3 cfg1.N = Cert.GCN.linRow (Cert.GCN.act (V c main_v42)) (V c main_arg4) (V c main_v43) :=
  (dat1 V c).arrAt_eq_of_cover 3 _ (fun t _ => wrote1 V c t) covered1

end Cert.KernelIdeal.RegionValue
end
-- ==== Proof.Region2.lean ====
/-
  Region 2 of the kernel program: the activation, block by block.

  The region walks the 100000 x 64 array in ten blocks of 10000 rows. At point t it reads rows
  10000 t .. 10000 t + 9999 of the input array, applies tanh to every entry, and writes the result back to the
  same rows of the output array. The input's and the output's block at a point sit at the same place, so the entry
  (r, q) of the output depends on the entry (r, q) of the input only; every row r lies in the block of point
  r / 10000, so the ten blocks fill the array, and the output ends as tanh of the input, entry by entry.
-/
import proofs.«126072_j43164421325168_1_alg».proof.Proof.Gen.KernelIdeal.Frame
import proofs.«126072_j43164421325168_1_alg».proof.Proof.Spec
import Idealize.ShloMosaic.Lib.Pipeline.Value
import Idealize.ShloMosaic.Lib.ValueIdx

set_option maxRecDepth 16384
noncomputable section
namespace Cert.KernelIdeal.RegionValue
open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's one load and one store start at row 0, column 0 of the block. -/
theorem origin2 : (![0, 0] : Fin 2 → Nat) = fun _ => 0 := funext fun a => by fin_cases a <;> rfl

/-- What the body stores: tanh of every entry of the block it loaded (the reshape in front of it keeps the shape). -/
theorem tanhBlock (x0 : Vec Ideal S10000x64 .f32) : k2_pay1 (F := Ideal) x0 = fun j => Ideal.tanh (x0 j) := by
  have e : k2_pay1 (F := Ideal) x0 = tanh (shapeCast S10000x64 x0 shapeCasts_S10000x64_S10000x64) := rfl
  rw [e, shapeCast_self]
  rfl

/-- Where the blocks sit: at point t the input's and the output's block are both block t of the rows and the one
    block of the columns. -/
theorem blockPlace2 : ∀ t : Fin cfg2.N, win2_0.index t (0 : Fin 2) = win2_1.index t (0 : Fin 2)
    ∧ win2_0.index t (1 : Fin 2) = win2_1.index t (1 : Fin 2)
    ∧ win2_1.index t (0 : Fin 2) = t.val
    ∧ win2_1.index t (1 : Fin 2) = 0 :=
  (by decide +kernel : ∀ t : Fin grid2.N, _)

/-- What point t writes back is block t of tanh of the input array. -/
theorem writeBack2 (c : Dev nD) (t : Fin cfg2.N) :
    (dat2 V c).flushed 1 t = ((cfg2.win 1).blk t).view.read (Elt Ideal) (Cert.GCN.act (V c main_v78)) := by
  show (cfg2.win 1).cut (grid2.coords t) ((dat2 V c).after 1 t) = _
  rw [after2_1]
  unfold out2_1
  rw [View.canon_unit_zero origin2]
  simp only [View.ld_unit_zero (S := S10000x64) origin2]
  rw [tanhBlock]
  obtain ⟨e0, e1, -, -⟩ := blockPlace2 t
  funext j
  show Ideal.tanh (V c main_v78 (((cfg2.win 0).blk t).view.emb j)) = Ideal.tanh (V c main_v78 (((cfg2.win 1).blk t).view.emb j))
  have h0 : ((cfg2.win 0).blk t).view.emb j = ((cfg2.win 1).blk t).view.emb j := by
    funext a; apply Fin.ext
    match a with
    | ⟨0, _⟩ => show win2_0.index t (0 : Fin 2) * 10000 + 1 * (j 0).val = win2_1.index t (0 : Fin 2) * 10000 + 1 * (j 0).val; omega
    | ⟨1, _⟩ => show win2_0.index t (1 : Fin 2) * 64 + 1 * (j 1).val = win2_1.index t (1 : Fin 2) * 64 + 1 * (j 1).val; omega
  rw [h0]

/-- An entry of the array is in point t's block exactly when each coordinate is in the block's range on its axis. -/
theorem inBlock2 (t : Fin cfg2.N) (i : S100000x64.Idx) :
    i ∈ ((cfg2.win 1).blk t).view.set ↔ ∀ a : Fin 2, win2_1.index t a * S10000x64.size a ≤ (i a).val ∧ (i a).val < win2_1.index t a * S10000x64.size a + S10000x64.size a := by
  show i ∈ ((View.whole main_v79).slice (win2_1.rect t)).set ↔ _
  rw [View.set_slice_whole, Rect.mem_set_unit]
  exact Iff.rfl

/-- Every entry is written back by some point: row r by point r / 10000. -/
theorem filled2 (i : S100000x64.Idx) :
    ∃ t : Fin cfg2.N, (cfg2.win 1).flush t = true ∧ i ∈ ((cfg2.win 1).blk t).view.set := by
  have hi0 : (i 0).val < 100000 := (i 0).isLt
  have hi1 : (i 1).val < 64 := (i 1).isLt
  have hN : grid2.N = 10 := N_2
  have hlt : (i 0).val / 10000 < grid2.N := by rw [hN]; omega
  obtain ⟨-, -, e2, e3⟩ := blockPlace2 ⟨(i 0).val / 10000, hlt⟩
  refine ⟨⟨(i 0).val / 10000, hlt⟩, flush2_1 _, ?_⟩
  rw [inBlock2]
  intro a
  match a with
  | ⟨0, _⟩ =>
    show win2_1.index ⟨(i 0).val / 10000, hlt⟩ (0 : Fin 2) * 10000 ≤ (i 0).val ∧ (i 0).val < win2_1.index ⟨(i 0).val / 10000, hlt⟩ (0 : Fin 2) * 10000 + 10000
    rw [e2]
    show (i 0).val / 10000 * 10000 ≤ (i 0).val ∧ (i 0).val < (i 0).val / 10000 * 10000 + 10000
    omega
  | ⟨1, _⟩ =>
    show win2_1.index ⟨(i 0).val / 10000, hlt⟩ (1 : Fin 2) * 64 ≤ (i 1).val ∧ (i 1).val < win2_1.index ⟨(i 0).val / 10000, hlt⟩ (1 : Fin 2) * 64 + 64
    rw [e3]
    omega

/-- The output array after the region: tanh of the input array, entry by entry. -/
theorem arr2 (c : Dev nD) : (dat2 V c).arrAt 1 cfg2.N = Cert.GCN.act (V c main_v78) :=
  (dat2 V c).arrAt_eq_of_cover 1 (Cert.GCN.act (V c main_v78)) (fun t _ => writeBack2 V c t) filled2

end Cert.KernelIdeal.RegionValue
end
-- ==== Proof.Net.lean ====
/-
  The whole network as one function of the six arguments.

  Two graph-convolution layers: a dense layer (`lin`), the aggregation over the edges (`agg`, with the sources and
  targets `rowOf e`, `colOf e` of the edge list `e`), then tanh (`act`); the second layer takes the first one's
  output. Both programs are shown to end with their result array at this function of their arguments.
-/
import proofs.«126072_j43164421325168_1_alg».proof.Proof.KernelHost
import proofs.«126072_j43164421325168_1_alg».proof.Proof.Spec

noncomputable section

namespace Cert.GCN

open Idealize.ShloMosaic
open Cert.KernelIdeal.HostValue (rowOf colOf agg)

/-- One layer: dense, aggregate, activate. -/
def layer (e : (⟨Cert.KernelIdeal.S2x1600000, .i32⟩ : BufTy).Contents (Elt Ideal))
    (x : FVec Ideal SN .f32) (w : FVec Ideal SW .f32) (b : FVec Ideal SB .f32) : FVec Ideal SN .f32 :=
  act (agg (rowOf e) (colOf e) (lin x w b))

/-- The network: the second layer of the first. -/
def net (x : FVec Ideal SN .f32) (e : (⟨Cert.KernelIdeal.S2x1600000, .i32⟩ : BufTy).Contents (Elt Ideal))
    (w1 : FVec Ideal SW .f32) (b1 : FVec Ideal SB .f32) (w2 : FVec Ideal SW .f32) (b2 : FVec Ideal SB .f32) :
    FVec Ideal SN .f32 :=
  layer e (layer e x w1 b1) w2 b2

end Cert.GCN

end
-- ==== Proof.KernelValue.lean ====
/-
  The idealized kernel program's result array is the network of its arguments.

  The last boundary of the run holds, at the result array, what region 2 leaves: tanh of what it finds, the
  aggregation of region 1's output; region 1 leaves the dense layer of tanh of what it finds, the aggregation of
  region 0's output; region 0 leaves the dense layer of the arguments. The sources and targets of the edges are
  computed once, before region 0, and no region or later host operation writes them.
-/
import proofs.«126072_j43164421325168_1_alg».proof.Proof.KernelHost
import proofs.«126072_j43164421325168_1_alg».proof.Proof.Region0
import proofs.«126072_j43164421325168_1_alg».proof.Proof.Region1
import proofs.«126072_j43164421325168_1_alg».proof.Proof.Region2
import proofs.«126072_j43164421325168_1_alg».proof.Proof.Net

set_option maxRecDepth 16384

noncomputable section

namespace Cert.KernelIdeal.Final

open Cert.KernelIdeal Cert.KernelIdeal.Gen Cert.KernelIdeal.HostValue Cert.KernelIdeal.RegionValue
open Idealize.ShloMosaic Idealize.ShloMosaic.TcCoe Idealize.SL.Sem
open Cert.GCN (lin linRow act layer net linRow_shapeCast)

variable (m : (ℓ : Loc nD τ sig) → Buf (Elt Ideal) ℓ) (ρ : Dev nD → PrngReg)

/-- Region 0's output: the first dense layer of the arguments. -/
theorem out0 (c : Dev nD) : W2 m ρ c (Proc.devRef .tc main_v8)
    = lin (m ((c : Thread nD τ).loc main_arg0)) (m ((c : Thread nD τ).loc main_arg2)) (m ((c : Thread nD τ).loc main_arg3)) := by
  refine (W2_arr m ρ c 3).trans ?_
  rw [arr0 (V1 m ρ) c, entry0_x, entry0_w, entry0_b, linRow_shapeCast]

/-- Region 1's input: the first layer before its activation. -/
theorem in1 (c : Dev nD) : V3 m ρ c main_v42
    = agg (rowOf (m ((c : Thread nD τ).loc main_arg1))) (colOf (m ((c : Thread nD τ).loc main_arg1)))
        (lin (m ((c : Thread nD τ).loc main_arg0)) (m ((c : Thread nD τ).loc main_arg2)) (m ((c : Thread nD τ).loc main_arg3))) := by
  rw [entry1_h, row2, col2, out0]

/-- Region 1's output: the second dense layer of the first layer. -/
theorem out1 (c : Dev nD) : W4 m ρ c (Proc.devRef .tc main_v44)
    = lin (layer (m ((c : Thread nD τ).loc main_arg1)) (m ((c : Thread nD τ).loc main_arg0)) (m ((c : Thread nD τ).loc main_arg2)) (m ((c : Thread nD τ).loc main_arg3)))
        (m ((c : Thread nD τ).loc main_arg4)) (m ((c : Thread nD τ).loc main_arg5)) := by
  refine (W4_arr m ρ c 3).trans ?_
  rw [arr1 (V3 m ρ) c, in1, entry1_w, entry1_b, w2_2, b2_2, linRow_shapeCast]
  rfl

/-- Region 2's input: the second layer before its activation. -/
theorem in2 (c : Dev nD) : V5 m ρ c main_v78
    = agg (rowOf (m ((c : Thread nD τ).loc main_arg1))) (colOf (m ((c : Thread nD τ).loc main_arg1)))
        (lin (layer (m ((c : Thread nD τ).loc main_arg1)) (m ((c : Thread nD τ).loc main_arg0)) (m ((c : Thread nD τ).loc main_arg2)) (m ((c : Thread nD τ).loc main_arg3)))
          (m ((c : Thread nD τ).loc main_arg4)) (m ((c : Thread nD τ).loc main_arg5))) := by
  rw [entry2_h, row4, col4, out1]

/-- The result array at the last boundary: the network of the arguments. -/
theorem result (c : Dev nD) : W6 m ρ c (Proc.devRef .tc main_v79)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 1).trans ?_
  rw [arr2 (V5 m ρ) c, in2]
  rfl

end Cert.KernelIdeal.Final

end
-- ==== Proof.RefAgg.lean ====
/-
  The reference's aggregation steps are the kernel program's.

  Both programs apply the same host operations to the edge list and to a layer's dense output: the sources and the
  targets with the self loops appended, the degree as a scattered sum of ones, its power -1/2, the index wrapped once
  if negative, the weight of an edge as a product of two gathered entries, and the scattered sum of the weighted,
  gathered rows. Each lemma names one stage of the reference as the corresponding function of the kernel program's
  vocabulary, the stages below it kept as opaque values; nothing is computed.
-/
import proofs.«126072_j43164421325168_1_alg».proof.Proof.Gen.ReferenceIdeal.Read
import proofs.«126072_j43164421325168_1_alg».proof.Proof.KernelHost

noncomputable section

namespace Cert.ReferenceIdeal.Aggregate

open Cert.ReferenceIdeal Cert.ReferenceIdeal.Gen Cert.ReferenceIdeal.Read
open Idealize.ShloMosaic Idealize.ShloMosaic.TcCoe Idealize.SL.Sem
open Cert.KernelIdeal.HostValue (endsOf rowOf colOf dis wrap edgeWeight agg)

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-! ## The edges' ends -/

theorem row_eq : val_main_v3 (F := Ideal) x1 = rowOf x1 := by
  unfold val_main_v3 val_main_v2 val_main_v1 val_main_v0 rowOf endsOf
  rfl
theorem col_eq : val_main_v6 (F := Ideal) x1 = colOf x1 := by
  unfold val_main_v6 val_main_v5 val_main_v4 val_main_v0 colOf endsOf
  rfl

/-! ## The first layer's aggregation -/

theorem dis1 : val_main_v17 (F := Ideal) x1 = dis (val_main_v3 (F := Ideal) x1) := by
  unfold val_main_v17 val_main_v16 val_main_v15 val_main_v14 val_main_v13 val_main_v12 val_main_cst val_main_cst_0 val_main_cst_1 dis
  generalize val_main_v3 (F := Ideal) x1 = r
  rfl
theorem wrapRow1 : val_main_v23 (F := Ideal) x1 = wrap (val_main_v3 (F := Ideal) x1) := by
  unfold val_main_v23 val_main_v22 val_main_v21 val_main_v20 val_main_v19 val_main_v18 val_main_c val_main_c_2 wrap
  generalize val_main_v3 (F := Ideal) x1 = r
  rfl
theorem wrapCol1 : val_main_v30 (F := Ideal) x1 = wrap (val_main_v6 (F := Ideal) x1) := by
  unfold val_main_v30 val_main_v29 val_main_v28 val_main_v27 val_main_v26 val_main_v25 val_main_c_3 val_main_c_4 wrap
  generalize val_main_v6 (F := Ideal) x1 = r
  rfl
theorem wrapSrc1 : val_main_v39 (F := Ideal) x1 = wrap (val_main_v3 (F := Ideal) x1) := by
  unfold val_main_v39 val_main_v38 val_main_v37 val_main_v36 val_main_v35 val_main_v34 val_main_c_5 val_main_c_6 wrap
  generalize val_main_v3 (F := Ideal) x1 = r
  rfl
theorem weight1 : val_main_v32 (F := Ideal) x1 = edgeWeight (val_main_v3 (F := Ideal) x1) (val_main_v6 (F := Ideal) x1) := by
  unfold val_main_v32 val_main_v31 val_main_v24 edgeWeight
  rw [dis1, wrapRow1, wrapCol1]
  generalize val_main_v3 (F := Ideal) x1 = r
  generalize val_main_v6 (F := Ideal) x1 = s
  generalize dis r = d
  generalize wrap r = a
  generalize wrap s = b
  rfl
theorem agg1 : val_main_v45 (F := Ideal) x0 x1 x2 x3
    = agg (val_main_v3 (F := Ideal) x1) (val_main_v6 (F := Ideal) x1) (val_main_v11 (F := Ideal) x0 x2 x3) := by
  unfold val_main_v45 val_main_v44 val_main_v43 val_main_v42 val_main_v41 val_main_v40 val_main_v33 val_main_cst_7 agg
  rw [weight1, wrapSrc1]
  generalize val_main_v11 (F := Ideal) x0 x2 x3 = h
  generalize val_main_v3 (F := Ideal) x1 = r
  generalize val_main_v6 (F := Ideal) x1 = s
  generalize edgeWeight r s = w
  generalize wrap r = a
  rfl

/-! ## The second layer's aggregation -/

theorem dis2 : val_main_v57 (F := Ideal) x1 = dis (val_main_v3 (F := Ideal) x1) := by
  unfold val_main_v57 val_main_v56 val_main_v55 val_main_v54 val_main_v53 val_main_v52 val_main_cst_8 val_main_cst_9 val_main_cst_10 dis
  generalize val_main_v3 (F := Ideal) x1 = r
  rfl
theorem wrapRow2 : val_main_v63 (F := Ideal) x1 = wrap (val_main_v3 (F := Ideal) x1) := by
  unfold val_main_v63 val_main_v62 val_main_v61 val_main_v60 val_main_v59 val_main_v58 val_main_c_11 val_main_c_12 wrap
  generalize val_main_v3 (F := Ideal) x1 = r
  rfl
theorem wrapCol2 : val_main_v70 (F := Ideal) x1 = wrap (val_main_v6 (F := Ideal) x1) := by
  unfold val_main_v70 val_main_v69 val_main_v68 val_main_v67 val_main_v66 val_main_v65 val_main_c_13 val_main_c_14 wrap
  generalize val_main_v6 (F := Ideal) x1 = r
  rfl
theorem wrapSrc2 : val_main_v79 (F := Ideal) x1 = wrap (val_main_v3 (F := Ideal) x1) := by
  unfold val_main_v79 val_main_v78 val_main_v77 val_main_v76 val_main_v75 val_main_v74 val_main_c_15 val_main_c_16 wrap
  generalize val_main_v3 (F := Ideal) x1 = r
  rfl
theorem weight2 : val_main_v72 (F := Ideal) x1 = edgeWeight (val_main_v3 (F := Ideal) x1) (val_main_v6 (F := Ideal) x1) := by
  unfold val_main_v72 val_main_v71 val_main_v64 edgeWeight
  rw [dis2, wrapRow2, wrapCol2]
  generalize val_main_v3 (F := Ideal) x1 = r
  generalize val_main_v6 (F := Ideal) x1 = s
  generalize dis r = d
  generalize wrap r = a
  generalize wrap s = b
  rfl
theorem agg2 : val_main_v85 (F := Ideal) x0 x1 x2 x3 x4 x5
    = agg (val_main_v3 (F := Ideal) x1) (val_main_v6 (F := Ideal) x1) (val_main_v51 (F := Ideal) x0 x1 x2 x3 x4 x5) := by
  unfold val_main_v85 val_main_v84 val_main_v83 val_main_v82 val_main_v81 val_main_v80 val_main_v73 val_main_cst_17 agg
  rw [weight2, wrapSrc2]
  generalize val_main_v51 (F := Ideal) x0 x1 x2 x3 x4 x5 = h
  generalize val_main_v3 (F := Ideal) x1 = r
  generalize val_main_v6 (F := Ideal) x1 = s
  generalize edgeWeight r s = w
  generalize wrap r = a
  rfl

end Cert.ReferenceIdeal.Aggregate

end
-- ==== Proof.RefLayer.lean ====
/-
  The reference's two dense layers and its two activations, read entry by entry.

  The reference computes a dense layer as a product of the features with the transposed weight matrix, plus the bias
  broadcast first to one row and then to every row. Entry (p, q) of the product is the sum over k of the features at
  (p, k) times the transposed weights at (k, q), that is the weights at (q, k); entry (p, q) of the broadcast bias is
  the bias at q. So the layer is the specification's `lin` of its three operands: for the first layer the arguments
  themselves, for the second the first activation's output and the second layer's weights and bias. Each activation is
  tanh of the array before it, entry by entry.
-/
import proofs.«126072_j43164421325168_1_alg».proof.Proof.Gen.ReferenceIdeal.Read
import proofs.«126072_j43164421325168_1_alg».proof.Proof.Spec

noncomputable section
namespace Cert.ReferenceIdeal.Layer
open Cert.ReferenceIdeal Cert.ReferenceIdeal.Gen Cert.ReferenceIdeal.Read Idealize.ShloMosaic Idealize.ShloMosaic.TcCoe Idealize.SL.Sem Idealize.ShloMosaic.ValueIdx

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-! ## Where each entry is read: the first layer -/

/-- Term k of entry (p, q) of the product reads the features at (p, k). -/
theorem feat1 (p : Fin 100000) (q k : Fin 64) : lidx_main_v8 (ix2 p q) k = ix2 p k :=
  funext fun a => Fin.ext (by match a with | ⟨0, _⟩ => rfl | ⟨1, _⟩ => rfl)
/-- It reads the transposed weights at (k, q): the weights at (q, k). -/
theorem weight1 (p : Fin 100000) (q k : Fin 64) : idx_main_v7 (ridx_main_v8 (ix2 p q) k) = ix2 q k :=
  funext fun a => Fin.ext (by match a with | ⟨0, _⟩ => rfl | ⟨1, _⟩ => rfl)
/-- Entry (p, q) of the bias broadcast to every row is the bias at q. -/
theorem bias1 (p : Fin 100000) (q : Fin 64) : idx_main_v9 (idx_main_v10 (ix2 p q)) = ix1 q :=
  funext fun a => Fin.ext (by match a with | ⟨0, _⟩ => rfl)

/-! ## The second layer: the same places -/

theorem feat2 (p : Fin 100000) (q k : Fin 64) : lidx_main_v48 (ix2 p q) k = ix2 p k :=
  funext fun a => Fin.ext (by match a with | ⟨0, _⟩ => rfl | ⟨1, _⟩ => rfl)
theorem weight2 (p : Fin 100000) (q k : Fin 64) : idx_main_v47 (ridx_main_v48 (ix2 p q) k) = ix2 q k :=
  funext fun a => Fin.ext (by match a with | ⟨0, _⟩ => rfl | ⟨1, _⟩ => rfl)
theorem bias2 (p : Fin 100000) (q : Fin 64) : idx_main_v49 (idx_main_v50 (ix2 p q)) = ix1 q :=
  funext fun a => Fin.ext (by match a with | ⟨0, _⟩ => rfl)

/-! ## The layers -/

/-- The first dense layer is `lin` of the features, the first weights and the first bias. -/
theorem lin1 : val_main_v11 (F := Ideal) x0 x2 x3 = Cert.GCN.lin x0 x2 x3 := by
  funext i
  obtain ⟨p, q, rfl⟩ : ∃ (p : Fin 100000) (q : Fin 64), i = ix2 p q := ⟨i 0, i 1, eq_ix2 i⟩
  rw [val_main_v11_apply, val_main_v8_apply, val_main_v10_apply, val_main_v9_apply, bias1, Cert.GCN.lin_apply,
    Ideal.addf_def]
  congr 1
  refine Finset.sum_congr rfl fun k _ => ?_
  rw [val_main_v7_apply, feat1, weight1]

/-- The second dense layer is `lin` of the first activation's output, the second weights and the second bias. -/
theorem lin2 : val_main_v51 (F := Ideal) x0 x1 x2 x3 x4 x5 = Cert.GCN.lin (val_main_v46 (F := Ideal) x0 x1 x2 x3) x4 x5 := by
  funext i
  obtain ⟨p, q, rfl⟩ : ∃ (p : Fin 100000) (q : Fin 64), i = ix2 p q := ⟨i 0, i 1, eq_ix2 i⟩
  rw [val_main_v51_apply, val_main_v48_apply, val_main_v50_apply, val_main_v49_apply, bias2]
  generalize val_main_v46 (F := Ideal) x0 x1 x2 x3 = y
  rw [Cert.GCN.lin_apply, Ideal.addf_def]
  congr 1
  refine Finset.sum_congr rfl fun k _ => ?_
  rw [val_main_v47_apply, feat2, weight2]

/-! ## The activations -/

theorem act1 : val_main_v46 (F := Ideal) x0 x1 x2 x3 = Cert.GCN.act (val_main_v45 (F := Ideal) x0 x1 x2 x3) := by
  unfold val_main_v46
  generalize val_main_v45 (F := Ideal) x0 x1 x2 x3 = y
  exact (Cert.GCN.act_eq_hostTanh y).symm
theorem act2 : val_main_v86 (F := Ideal) x0 x1 x2 x3 x4 x5 = Cert.GCN.act (val_main_v85 (F := Ideal) x0 x1 x2 x3 x4 x5) := by
  unfold val_main_v86
  generalize val_main_v85 (F := Ideal) x0 x1 x2 x3 x4 x5 = y
  exact (Cert.GCN.act_eq_hostTanh y).symm
end Cert.ReferenceIdeal.Layer
end
-- ==== Proof.RefValue.lean ====
/-
  The idealized reference's result is the network of its arguments.

  Stage by stage: the last activation of the second aggregation of the second dense layer of the first activation of
  the first aggregation of the first dense layer, the edges' ends those of the edge list.
-/
import proofs.«126072_j43164421325168_1_alg».proof.Proof.RefAgg
import proofs.«126072_j43164421325168_1_alg».proof.Proof.RefLayer
import proofs.«126072_j43164421325168_1_alg».proof.Proof.Net

noncomputable section

namespace Cert.ReferenceIdeal.Final

open Cert.ReferenceIdeal Cert.ReferenceIdeal.Gen Cert.ReferenceIdeal.Read
open Idealize.ShloMosaic Idealize.ShloMosaic.TcCoe Idealize.SL.Sem
open Cert.GCN (lin act layer net)

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-- The first layer's output. -/
theorem layer1 : val_main_v46 (F := Ideal) x0 x1 x2 x3 = layer x1 x0 x2 x3 := by
  rw [Layer.act1, Aggregate.agg1, Layer.lin1, Aggregate.row_eq, Aggregate.col_eq]
  rfl

/-- The last stage is the network. -/
theorem stage_eq : val_main_v86 (F := Ideal) x0 x1 x2 x3 x4 x5 = net x0 x1 x2 x3 x4 x5 := by
  rw [Layer.act2, Aggregate.agg2, Layer.lin2, layer1, Aggregate.row_eq, Aggregate.col_eq]
  rfl

/-- The run's result term is the network of the launch memory's arguments. -/
theorem result (m : (ℓ : Loc nD τ sig) → Buf (Elt Ideal) ℓ) (c : Dev nD) :
    Cert.ReferenceIdeal.Value.res_main_v86 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (val_main_v86_eq (F := Ideal) m c).trans (stage_eq _ _ _ _ _ _)

end Cert.ReferenceIdeal.Final

end
-- ==== Proof.lean ====
/-
  A two-layer graph convolution on 100000 nodes with 64 channels: each layer is a dense map `x · Wᵀ + b`, a
  normalized aggregation over 1600000 edges plus one self loop per node, and tanh.

  The kernel computes the two dense maps and the last tanh in three gridded kernel regions (ten blocks of 10000 rows
  each; the second region applies the first layer's tanh to its input block before the product), and does the
  aggregation with host operations between the regions. The reference does everything with host operations. On the
  extended reals the two agree entry by entry without any algebra beyond re-indexing a sum: a block product into a
  zero accumulator and the host's product are both the sum over k of `x[p, k] · W[q, k]` (narrowing the operands to a
  shorter float format is the identity there), the bias is added the same way, tanh is one function on both sides, and
  the aggregation is literally the same chain of host operations applied to equal arrays. No finiteness is used: the
  precondition is never opened.

  Modules: Spec (the dense layer and the activation as whole-array functions), KernelHost (the kernel program's host
  stretches as values), Region0 / Region1 / Region2 (what each region leaves in its output array), KernelRun (the run
  with the result array named), Net and KernelValue (the kernel program's result is the network of its arguments),
  RefLayer and RefAgg (the reference's stages), RefValue (the reference's result is the same network).
-/
import proofs.«126072_j43164421325168_1_alg».proof.Defs
import proofs.«126072_j43164421325168_1_alg».proof.Proof.Gen.Kernel
import proofs.«126072_j43164421325168_1_alg».proof.Proof.Gen.Kernel.Frame
import proofs.«126072_j43164421325168_1_alg».proof.Proof.Gen.KernelIdeal
import proofs.«126072_j43164421325168_1_alg».proof.Proof.Gen.KernelIdeal.Frame
import proofs.«126072_j43164421325168_1_alg».proof.Proof.Gen.ReferenceIdeal
import proofs.«126072_j43164421325168_1_alg».proof.Proof.Gen.ReferenceIdeal.Run
import proofs.«126072_j43164421325168_1_alg».proof.Proof.Gen.Pre_finite_inputs
import proofs.«126072_j43164421325168_1_alg».proof.Proof.KernelRun
import proofs.«126072_j43164421325168_1_alg».proof.Proof.KernelValue
import proofs.«126072_j43164421325168_1_alg».proof.Proof.RefValue

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the network of the (agreeing) arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Final.result m ρ c), (h c).2⟩)
      (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Final.result m' c, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
